-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S8192x1024 .f32) (main_arg1 : FVec F S1024x1024 .f32) (main_arg2 : FVec F S1x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  main_v13
-- ==== Kernel.lean ====
abbrev S8192x1024 : Shape := ⟨2, ![8192, 1024]⟩
abbrev S1024x1024 : Shape := ⟨2, ![1024, 1024]⟩
abbrev S1x1024 : Shape := ⟨2, ![1, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1x1024, .f32⟩
  | .hbm, ⟨3, _⟩ => ⟨S1024x1024, .bf16⟩
  | .hbm, ⟨4, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  broadcasts_S1x1024_S512x1024 : S1x1024.Broadcasts S512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .f32 = 32 ∨ (Rect.block (s := S8192x1024) S512x1024.size (cc0_transform_3 i) (hinb0_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1x1024 : Shape := ⟨2, ![1, 1024]⟩
abbrev S2048x512 : Shape := ⟨2, ![2048, 512]⟩
abbrev S512x512 : Shape := ⟨2, ![512, 512]⟩
abbrev S1x512 : Shape := ⟨2, ![1, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1x1024, .f32⟩
  | .hbm, ⟨3, _⟩ => ⟨S8192x1024, .f32⟩
  | .local _ .vmem, ⟨0, _⟩ => ⟨S2048x512, .f32⟩
  | .local _ .vmem, ⟨1, _⟩ => ⟨S2048x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S2048x512, .f32⟩
  | .local _ .vmem, ⟨7, _⟩ => ⟨S2048x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  inb_S2048x512_S2048x512_0_0 : ∀ a, (![0, 0] : Fin 2 → Nat) a + S2048x512.size a ≤ S2048x512.size a
  h_S2048x512 : 0 < S2048x512.numel
  inb_S512x512_S512x512_0_0 : ∀ a, (![0, 0] : Fin 2 → Nat) a + S512x512.size a ≤ S512x512.size a
  h_S512x512 : 0 < S512x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  broadcasts_S1x512_S2048x512 : S1x512.Broadcasts S2048x512
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x1024.size a
  hwx0_0 : ∀ i : grid0.Coords, EltTy.bits .f32 = 32 ∨ (Rect.block (s := S8192x1024) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S1024x1024.size a
  hwx0_1 : ∀ i : grid0.Coords, EltTy.bits .f32 = 32 ∨ (Rect.block (s := S1024x1024) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x1024.size a
  hwx0_2 : ∀ i : grid0.Coords, EltTy.bits .f32 = 32 ∨ (Rect.block (s := S1x1024) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S8192x1024.size a
  hwx0_3 : ∀ i : grid0.Coords, EltTy.bits .f32 = 32 ∨ (Rect.block (s := S8192x1024) S2048x512.size (cc0_transform_3 i) (hinb0_3 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) && !(k0_cond3 i == 1#1) | ⟨_ + 4, h⟩ => absurd h (Nat.not_lt.2 (Nat.le_add_left _ _))

class Facts : Prop extends Facts₀ where

variable [Facts]
-- ==== Proof.Spec.lean ====
/-
  The function both programs compute at the ideal values: a dense affine layer. For an activation matrix `x`
  (8192 rows of 1024 features), a weight matrix `w` (1024 × 1024, already transposed: feature `k` to output `j`)
  and a bias row `b`, entry `(i, j)` of the result is `(∑ k, x (i, k) * w (k, j)) + b (0, j)`, an exact sum of
  exact products on the extended reals.
-/
import Idealize.ShloMosaic.Lib.ValueIdx
import Idealize.ShloMosaic.PureOps.Ideal.Laws

noncomputable section

namespace Cert.Spec

open Idealize.ShloMosaic Idealize.ShloMosaic.ValueIdx

/-- The affine layer `x · w + b`, entry by entry. -/
def affine (x : FVec Ideal ⟨2, ![8192, 1024]⟩ .f32) (w : FVec Ideal ⟨2, ![1024, 1024]⟩ .f32)
    (b : FVec Ideal ⟨2, ![1, 1024]⟩ .f32) : FVec Ideal ⟨2, ![8192, 1024]⟩ .f32 :=
  fun i => (∑ k : Fin 1024, x (ix2 (i 0) k) * w (ix2 k (i 1))) + b (ix2 0 (i 1))

/-- The layer read at an entry given by its two coordinates. -/
theorem affine_apply (x : FVec Ideal ⟨2, ![8192, 1024]⟩ .f32) (w : FVec Ideal ⟨2, ![1024, 1024]⟩ .f32)
    (b : FVec Ideal ⟨2, ![1, 1024]⟩ .f32) (r : Fin 8192) (j : Fin 1024) :
    affine x w b (ix2 r j) = (∑ k : Fin 1024, x (ix2 r k) * w (ix2 k j)) + b (ix2 0 j) := rfl

end Cert.Spec

end
-- ==== Proof.LibPlainDot.lean ====
/-
  A plain matrix product `[M, K] × [K, N] → [M, N]` — the left operand's columns contracted with the right operand's
  rows, no batch axis — read at the output entry `(p, q)` at the ideal values: the sum over `k : Fin K` of
  `l (p, k) * r (k, q)`. The device's `matmul` into the zero accumulator and the host's `dot_general` are both
  this sum, whatever record spells the dimension numbers, as long as it is the plain one (`hd`, which a printed
  record meets by `rfl`); and nothing depends on the sizes, so one statement serves a block of rows and the
  whole array alike.
  Beside it: a sum over `Fin (a + b)` of a function that reads its first `a` positions from one family and the
  rest from another is the two families' sums — what a product with two column blocks joined side by side is.
-/
import Idealize.ShloMosaic.Lib.ValueIdx
import Idealize.ShloMosaic.PureOps.Ideal.Laws
import Mathlib.Algebra.BigOperators.Fin

namespace Cert.PlainDot

open Idealize.ShloMosaic Idealize.ShloMosaic.ValueIdx

variable {M K N : ℕ}

/-- The left operand index of the plain product at output `(p, q)` and contraction position `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := 1) rfl (ix2 p q) _).trans hk

/-- The right operand index is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of the plain product, re-indexed by the one contracted coordinate. -/
theorem plain_sum {β : Type*} [AddCommMonoid β] (f : (⟨2, ![M, K]⟩ : Shape).Idx → (⟨2, ![K, N]⟩ : Shape).Idx → β)
    (p : Fin M) (q : Fin N) :
    ∑ k : (DotDims.plain M K N).contr.Idx,
        f ((DotDims.plain M K N).lhsIdx (ix2 p q) k) ((DotDims.plain M K N).rhsIdx (ix2 p q) k)
      = ∑ k : Fin K, f (ix2 p k) (ix2 k q) := by
  rw [← Equiv.sum_comp (contrEquiv1 (DotDims.plain M K N) K rfl rfl).symm]
  refine Finset.sum_congr rfl fun k _ => ?_
  rw [plain_lhsIdx, plain_rhsIdx]

variable {φ₁ φ₂ : FTy}

/-- The device's matrix product into the zero accumulator, at `(p, q)`. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  subst hd
  simp only [matmul]
  rw [Ideal.matmul_constant_zero_apply]
  exact plain_sum (fun a b => l a * r b) p q

/-- The host's `dot_general`, at `(p, q)`. -/
theorem dotGeneral_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum (fun a b => l a * r b) p q

/-- A sum over `Fin (a + b)` of a function given piecewise — below `a` by `f`, from `a` on by `g` — is the sum of
    `f` plus the sum of `g`. -/
theorem sum_two_blocks {β : Type*} [AddCommMonoid β] {a b n : ℕ} (hn : n = a + b) (F : Fin n → β) (f : Fin a → β) (g : Fin b → β)
    (hf : ∀ k : Fin a, F ⟨k.val, by have := k.isLt; omega⟩ = f k)
    (hg : ∀ k : Fin b, F ⟨a + k.val, by have := k.isLt; omega⟩ = g k) :
    ∑ k : Fin n, F k = ∑ k : Fin a, f k + ∑ k : Fin b, g k := by
  subst hn
  rw [Fin.sum_univ_add]
  refine congrArg₂ (· + ·) (Finset.sum_congr rfl fun k _ => ?_) (Finset.sum_congr rfl fun k _ => ?_)
  · exact hf k
  · exact hg k

end Cert.PlainDot
-- ==== Proof.KernelPayload.lean ====
/-
  The arithmetic of one grid step, read at one entry. The step is handed a block of 512 activation rows `x0`, the
  whole weight matrix `x1` (already in the narrow format) and the bias row `x2`; it narrows the activations, multiplies
  into a zero accumulator, and adds the bias row spread over the 512 rows. On the extended reals the change of format
  and the same-shape cast are the identity, the product into zero is the plain sum of products over the 1024 features,
  and the spread bias read at `(p, q)` is the bias at `(0, q)`. So entry `(p, q)` of what the step stores is
  `(∑ k, x0 (p, k) * x1 (k, q)) + x2 (0, q)`.
-/
import proofs.«148169_g2000509682604096_pallasbulk_105_2_alg».proof.Proof.Gen.KernelIdeal.Skeleton
import proofs.«148169_g2000509682604096_pallasbulk_105_2_alg».proof.Proof.LibPlainDot
import Idealize.ShloMosaic.Lib.ValueIdx
import Idealize.ShloMosaic.Lib.Pipeline.Value
import Idealize.ShloMosaic.PureOps.Ideal.Laws

noncomputable section

namespace Cert.KernelIdeal.KPayload

open Cert.KernelIdeal Cert.KernelIdeal.Gen Idealize.ShloMosaic Idealize.ShloMosaic.ValueIdx

/-- The bias row spread over the block's rows, read at `(p, q)`, is the bias at `(0, q)`. -/
theorem bias_spread_apply (x2 : Vec Ideal S1x1024 .f32) (p : Fin 512) (q : Fin 1024) :
    broadcastTo S512x1024 x2 broadcasts_S1x1024_S512x1024 (ix2 p q) = x2 (ix2 0 q) := by
  refine broadcastTo_apply x2 broadcasts_S1x1024_S512x1024 (ix2 p q) (ix2 0 q) fun a => ?_
  match a with
  | ⟨0, _⟩ => rfl
  | ⟨1, _⟩ => rfl

/-- The product of the narrowed activations with the weights into the zero accumulator, at `(p, q)`: the sum over
    the features of activation times weight. -/
theorem product_apply (x0 : Vec Ideal S512x1024 .f32) (x1 : Vec Ideal S1024x1024 .bf16) (p : Fin 512) (q : Fin 1024) :
    matmul dot_S512x1024_S1024x1024_S512x1024_1_0_0_1_n_n none
        (truncf .bf16 x0 bitsLt_bf16_f32 : FVec Ideal S512x1024 .bf16)
        (shapeCast S1024x1024 x1 shapeCasts_S1024x1024_S1024x1024 : FVec Ideal S1024x1024 .bf16)
        (constant (F := Ideal) S512x1024 .f32 0x00000000#32) (ix2 p q)
      = ∑ k : Fin 1024, x0 (ix2 p k) * x1 (ix2 k q) := by
  rw [shapeCast_self]
  exact Cert.PlainDot.matmul_zero_apply dot_S512x1024_S1024x1024_S512x1024_1_0_0_1_n_n rfl none
    (truncf .bf16 x0 bitsLt_bf16_f32 : FVec Ideal S512x1024 .bf16) x1 p q

/-- What one grid step stores, at entry `(p, q)` of its block. -/
theorem step_apply (x0 : Vec Ideal S512x1024 .f32) (x1 : Vec Ideal S1024x1024 .bf16) (x2 : Vec Ideal S1x1024 .f32)
    (p : Fin 512) (q : Fin 1024) :
    k0_pay1 (F := Ideal) x0 x1 x2 (ix2 p q) = (∑ k : Fin 1024, x0 (ix2 p k) * x1 (ix2 k q)) + x2 (ix2 0 q) := by
  unfold k0_pay1
  refine (addf_apply _ _ (ix2 p q)).trans ?_
  exact congrArg₂ (· + ·) (product_apply x0 x1 p q) (bias_spread_apply x2 p q)

end Cert.KernelIdeal.KPayload

end
-- ==== Proof.KernelStep.lean ====
/-
  One grid step against the whole layer. Suppose the step's activation block `x0` is rows `512·s … 512·s + 511` of an
  activation matrix `X`, its weight block `x1` is a weight matrix `W` entry for entry, and its bias block `x2` is a
  bias row `B`. Then what the step stores at `(p, q)` is the affine layer `X · W + B` at `(512·s + p, q)`: both are the
  sum over the features of activation times weight, plus the bias of column `q`.
-/
import proofs.«148169_g2000509682604096_pallasbulk_105_2_alg».proof.Proof.KernelPayload
import proofs.«148169_g2000509682604096_pallasbulk_105_2_alg».proof.Proof.Spec

noncomputable section

namespace Cert.KernelIdeal.KStep

open Cert.KernelIdeal Cert.KernelIdeal.Gen Idealize.ShloMosaic Idealize.ShloMosaic.ValueIdx

/-- The step's stored block, entry `y`, is the layer at the entry `i` with `i₀ = 512·s + y₀` and `i₁ = y₁`. -/
theorem step_eq_affine (x0 : Vec Ideal S512x1024 .f32) (x1 : Vec Ideal S1024x1024 .bf16) (x2 : Vec Ideal S1x1024 .f32)
    (X : FVec Ideal ⟨2, ![8192, 1024]⟩ .f32) (W : FVec Ideal ⟨2, ![1024, 1024]⟩ .f32) (B : FVec Ideal ⟨2, ![1, 1024]⟩ .f32)
    (s : Nat)
    (hx : ∀ (p : Fin 512) (k : Fin 1024) (r : Fin 8192), r.val = 512 * s + p.val → x0 (ix2 p k) = X (ix2 r k))
    (hw : ∀ k q : Fin 1024, x1 (ix2 k q) = W (ix2 k q))
    (hb : ∀ q : Fin 1024, x2 (ix2 0 q) = B (ix2 0 q))
    (y : S512x1024.Idx) (i : S8192x1024.Idx)
    (hi0 : (i 0).val = 512 * s + (y 0).val) (hi1 : (i 1).val = (y 1).val) :
    k0_pay1 (F := Ideal) x0 x1 x2 y = Cert.Spec.affine X W B i := by
  obtain ⟨p, q, rfl⟩ : ∃ (p : Fin 512) (q : Fin 1024), y = ix2 p q := ⟨y 0, y 1, eq_ix2 y⟩
  obtain ⟨r, j, rfl⟩ : ∃ (r : Fin 8192) (j : Fin 1024), i = ix2 r j := ⟨i 0, i 1, eq_ix2 i⟩
  obtain rfl : j = q := Fin.ext hi1
  rw [Cert.KernelIdeal.KPayload.step_apply, Cert.Spec.affine_apply]
  refine congrArg₂ (· + ·) (Finset.sum_congr rfl fun k _ => ?_) (hb j)
  rw [hx p k r hi0, hw k j]

end Cert.KernelIdeal.KStep

end
-- ==== Proof.KernelBlocks.lean ====
/-
  From the grid steps' blocks to the whole result array. The grid has 16 steps. At step `t` the activations' block and
  the result's block are rows `512·t … 512·t + 511` (all 1024 columns) of their arrays; the weights' block and the bias's
  block are the whole arrays at every step. The weights the steps read are the launched weights after one change of
  format done before the steps, which on the extended reals changes nothing. So what step `t` writes back is rows
  `512·t … 512·t + 511` of the affine layer of the three launched arrays; row `r` of the result is written by step
  `r / 512`, the 16 row blocks cover the result, and the result array ends holding the affine layer.
-/
import proofs.«148169_g2000509682604096_pallasbulk_105_2_alg».proof.Proof.Gen.KernelIdeal.Value
import proofs.«148169_g2000509682604096_pallasbulk_105_2_alg».proof.Proof.Spec
import proofs.«148169_g2000509682604096_pallasbulk_105_2_alg».proof.Proof.KernelStep
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.KBlocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The launched activations, weights and bias on core `c`. -/
abbrev acts (c : Dev nD) : FVec Ideal ⟨2, ![8192, 1024]⟩ .f32 := m ((c : Thread nD τ).loc main_arg0)
abbrev weights (c : Dev nD) : FVec Ideal ⟨2, ![1024, 1024]⟩ .f32 := m ((c : Thread nD τ).loc main_arg1)
abbrev bias (c : Dev nD) : FVec Ideal ⟨2, ![1, 1024]⟩ .f32 := m ((c : Thread nD τ).loc main_arg2)

/-- The affine layer of the launched arrays: what the result array is to hold. -/
abbrev layer (c : Dev nD) : FVec Ideal ⟨2, ![8192, 1024]⟩ .f32 := Cert.Spec.affine (acts m c) (weights m c) (bias m c)

theorem zero_offsets : (![0, 0] : Fin 2 → Nat) = fun _ => 0 := funext fun a => by fin_cases a <;> rfl

/-- Where the four blocks sit at step `t`: the activations' and the result's at row block `t`, column block 0; the
    weights' and the bias's at block (0, 0). -/
theorem block_positions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The weights the steps read: the launched weights through the one change of format before the steps. -/
theorem weights_read (c : Dev nD) :
    (V m c main_v0 : S1024x1024.Idx → Elt Ideal .bf16) = truncf .bf16 (weights m c) bitsLt_bf16_f32 := by
  dsimp only [Gen.V, Gen.hostOps0]; after_results

/-- Entry `(p, k)` of the activations' block at step `t` is entry `(512·t + p, k)` of the activations. -/
theorem acts_block_apply (c : Dev nD) (t : Fin cfg0.N) (p : Fin 512) (k : Fin 1024) (r : Fin 8192)
    (hr : r.val = 512 * t.val + p.val) :
    (iblk m c 0 t : Vec Ideal S512x1024 .f32) (ix2 p k) = acts m c (ix2 r k) := by
  obtain ⟨e0, e1, -⟩ := block_positions t
  unfold iblk
  rw [View.read_apply]
  show V m c main_arg0 _ = _
  refine (congrFun (V_main_arg0 m c) _).trans (congrArg (acts m c) ?_)
  funext a; apply Fin.ext
  match a with
  | ⟨0, _⟩ => show win0_0.index t (0 : Fin 2) * 512 + 1 * p.val = r.val; omega
  | ⟨1, _⟩ => show win0_0.index t (1 : Fin 2) * 1024 + 1 * k.val = k.val; omega

/-- The weights' block at any step is the launched weights, entry for entry. -/
theorem weights_block_apply (c : Dev nD) (t : Fin cfg0.N) (k q : Fin 1024) :
    (iblk m c 1 t : Vec Ideal S1024x1024 .bf16) (ix2 k q) = weights m c (ix2 k q) := by
  obtain ⟨-, -, e0, e1, -⟩ := block_positions t
  unfold iblk
  rw [View.read_apply]
  show V m c main_v0 _ = _
  refine (congrFun (weights_read m c) _).trans ?_
  show weights m c _ = weights m c _
  refine congrArg (weights m c) ?_
  funext a; apply Fin.ext
  match a with
  | ⟨0, _⟩ => show win0_1.index t (0 : Fin 2) * 1024 + 1 * k.val = k.val; omega
  | ⟨1, _⟩ => show win0_1.index t (1 : Fin 2) * 1024 + 1 * q.val = q.val; omega

/-- The bias's block at any step is the launched bias row. -/
theorem bias_block_apply (c : Dev nD) (t : Fin cfg0.N) (q : Fin 1024) :
    (iblk m c 2 t : Vec Ideal S1x1024 .f32) (ix2 0 q) = bias m c (ix2 0 q) := by
  obtain ⟨-, -, -, -, e0, e1, -⟩ := block_positions t
  unfold iblk
  rw [View.read_apply]
  show V m c main_arg2 _ = _
  refine (congrFun (V_main_arg2 m c) _).trans (congrArg (bias m c) ?_)
  funext a; apply Fin.ext
  match a with
  | ⟨0, _⟩ => show win0_2.index t (0 : Fin 2) * 1 + 1 * (0 : Fin 1).val = (0 : Fin 1).val; omega
  | ⟨1, _⟩ => show win0_2.index t (1 : Fin 2) * 1024 + 1 * q.val = q.val; omega

/-- What step `t` writes back is block `t` of the affine layer of the launched arrays. -/
theorem written_block (c : Dev nD) (t : Fin cfg0.N) :
    (dats m 0 c).flushed 3 t = ((cfg0.win 3).blk t).view.read (Elt Ideal) (layer m c) := by
  rw [Value.flushed3]
  unfold out0_3
  rw [View.canon_unit_zero zero_offsets]
  simp only [View.ld_unit_zero (S := S512x1024) zero_offsets, View.ld_unit_zero (S := S1024x1024) zero_offsets,
    View.ld_unit_zero (S := S1x1024) zero_offsets]
  obtain ⟨-, -, -, -, -, -, e0, e1⟩ := block_positions t
  funext j
  rw [View.read_apply]
  refine Cert.KernelIdeal.KStep.step_eq_affine (iblk m c 0 t) (iblk m c 1 t) (iblk m c 2 t)
    (acts m c) (weights m c) (bias m c) t.val
    (fun p k r hr => acts_block_apply m c t p k r hr) (fun k q => weights_block_apply m c t k q)
    (fun q => bias_block_apply m c t q)
    ((cfg0.win 3).xinj (grid0.coords t) j) (((cfg0.win 3).blk t).view.emb j) ?_ ?_
  · show win0_3.index t (0 : Fin 2) * 512 + 1 * (j 0).val = 512 * t.val + (j 0).val; omega
  · show win0_3.index t (1 : Fin 2) * 1024 + 1 * (j 1).val = (j 1).val; omega

/-- An entry of the result is in step `t`'s block iff each coordinate is in the block's range on its axis. -/
theorem mem_block (t : Fin cfg0.N) (i : S8192x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v1).slice (win0_3.rect t)).set ↔ _
  rw [View.set_slice_whole, Rect.mem_set_unit]
  exact Iff.rfl

/-- Row `r` of the result is written by step `r / 512`: the 16 row blocks cover the result. -/
theorem rows_covered (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  have hN : cfg0.N = 16 := N_0
  obtain ⟨t, ht⟩ : ∃ t : Fin cfg0.N, t.val = (i 0).val / 512 := ⟨⟨(i 0).val / 512, by omega⟩, rfl⟩
  obtain ⟨-, -, -, -, -, -, e0, e1⟩ := block_positions t
  refine ⟨t, flush0_3 t, ?_⟩
  rw [mem_block]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 1024 ≤ (i 1).val ∧ (i 1).val < win0_3.index t (1 : Fin 2) * 1024 + 1024
    omega

/-- After all 16 steps the result array holds the affine layer of the launched arrays. -/
theorem result_array (c : Dev nD) : (dats m 0 c).arrAt 3 cfg0.N = layer m c :=
  (dats m 0 c).arrAt_eq_of_cover 3 (layer m c) (fun t _ => written_block m c t) rows_covered

end Cert.KernelIdeal.KBlocks

end
-- ==== Proof.KernelValue.lean ====
/-
  The kernel's run, read: from any launched memory, every run of the program ends with the result array holding the
  affine layer `x · w + b` of the three launched arrays — activations `x`, weights `w`, bias row `b` — and with the
  three argument arrays as launched. The run's result array is named block by block by the generated run; the 16 row
  blocks are the affine layer's, and they cover the array.
-/
import proofs.«148169_g2000509682604096_pallasbulk_105_2_alg».proof.Proof.Gen.KernelIdeal.Value
import proofs.«148169_g2000509682604096_pallasbulk_105_2_alg».proof.Proof.Spec
import proofs.«148169_g2000509682604096_pallasbulk_105_2_alg».proof.Proof.KernelBlocks

noncomputable section

namespace Cert.KernelIdeal.KValue
open Cert.KernelIdeal Idealize.ShloMosaic Idealize.ShloMosaic.TcCoe Idealize.SL.Sem
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v1)
          = Cert.Spec.affine (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (Cert.KernelIdeal.KBlocks.result_array m c), (h c).2⟩)
    (Cert.KernelIdeal.Value.run_blocks m ρ)
end Cert.KernelIdeal.KValue

end
-- ==== Proof.RefRuns.lean ====
/-
  The reference's tiled kernel, one grid point at a time. The grid is (4, 2, 2): a row block of 2048 rows, a column
  block of 512 columns, and — innermost — one half of the 1024 contracted features. The output block of a (row block,
  column block) pair stays in its staging buffer over the two halves: at the first half (even points) the body
  overwrites it with the half's partial product; at the second half (odd points) it adds that half's partial product
  to what the first left and then adds the bias row. Here: which of the body's three conditions hold at a point, in
  closed form over the 16 points, and the body's run in each of the two cases the grid meets.
-/
import proofs.«148169_g2000509682604096_pallasbulk_105_2_alg».proof.Proof.Gen.ReferenceIdeal.Frame
import proofs.«148169_g2000509682604096_pallasbulk_105_2_alg».proof.Proof.Gen.ReferenceIdeal.Skeleton

set_option maxRecDepth 16384

noncomputable section

namespace Cert.ReferenceIdeal.RefFrame

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions over the grid -/

/-- The first condition (the contracted half is the first) holds exactly at the even points. -/
theorem hcond1 : ∀ t : Fin cfg0.N, k0_cond1 (grid0.coords t) = 1#1 ↔ t.val % 2 = 0 :=
  (by decide +kernel : ∀ t : Fin grid0.N, k0_cond1 (grid0.coords t) = 1#1 ↔ t.val % 2 = 0)
/-- The second (the half is a later one) holds exactly at the odd points. -/
theorem hcond2 : ∀ t : Fin cfg0.N, k0_cond2 (grid0.coords t) = 1#1 ↔ t.val % 2 = 1 :=
  (by decide +kernel : ∀ t : Fin grid0.N, k0_cond2 (grid0.coords t) = 1#1 ↔ t.val % 2 = 1)
/-- The third (the half is the last) holds exactly at the odd points. -/
theorem hcond3 : ∀ t : Fin cfg0.N, k0_cond3 (grid0.coords t) = 1#1 ↔ t.val % 2 = 1 :=
  (by decide +kernel : ∀ t : Fin grid0.N, k0_cond3 (grid0.coords t) = 1#1 ↔ t.val % 2 = 1)

/-- The output window is stored into at every point: no point is idle for it. -/
theorem live3 : ∀ i : grid0.Coords, cfg0.idle 3 i = false := by decide +kernel

/-! ## The staging memrefs at a point -/

/-- One staging buffer of the output window, through which its contents are stated. -/
abbrev VO3 : View sig .tc .vmem S2048x512 .f32 := (Memref.whole cc0_stg3_0 : Memref sig .tc .vmem S2048x512 .f32).view
abbrev ms0 (t : Fin cfg0.N) : Memref sig .tc .vmem S2048x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x512 .f32 := win0_3.stage (cfg0.slots t 3)
abbrev hs3 (t : Fin cfg0.N) : (ms3 t).IsWhole := hstage0_3 ((cfg0.slots t 3).cast nbuf0_3)

/-! ## The body's run, first half -/

set_option maxHeartbeats 1000000 in
/-- At a first-half point (only the first condition holds) the body, on whole staging memrefs holding the activation
    block, the weight block and the bias block, and an output buffer holding anything, runs to the end with the inputs
    as they were and the output buffer holding the pieces it stored (found by the run). -/
noncomputable def bodyRunA (c : Dev nD) (i : grid0.Coords)
    (arg3 : Memref sig .tc .vmem S2048x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S2048x512 .f32) (harg6 : arg6.IsWhole)
    (hc1 : k0_cond1 i = 1#1) (hc2 : ¬k0_cond2 i = 1#1) (hc3 : ¬k0_cond3 i = 1#1)
    (x0 : Vec F S2048x512 .f32) (x1 : Vec F S512x512 .f32) (x2 : Vec F S1x512 .f32) :
    { L3 : List (View.Piece (Elt F) S2048x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)) -∗ K ⟨⟩))
          ⊢ wp frame (wpE (defs₀ (F := F)) Variants.none c none) E (cc0__linear_tiled_kernel i arg3 harg3 arg4 harg4 arg5 harg5 arg6 harg6) K } := by
  refine ⟨?_, fun E K => ?run⟩
  case run =>
    simp only [cc0__linear_tiled_kernel_eq_skeleton]; unfold cc0__linear_tiled_kernel_skel
    unfold owns
    iintro ⟨⟨%f0, %hf0, H0⟩, ⟨%f1, %hf1, H1⟩, ⟨%f2, %hf2, H2⟩, ⟨%d3, %f3, -, H3⟩, Hk⟩
    obtain rfl := harg3.eq_unread hf0; obtain rfl := harg4.eq_unread hf1; obtain rfl := harg5.eq_unread hf2
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

/-! ## The body's run, second half -/

set_option maxHeartbeats 1000000 in
/-- At a second-half point (the second and third conditions hold, the first does not) the body, on whole staging
    memrefs holding the activation block, the weight block and the bias block, and the output buffer holding what
    the first half left (`xo`), runs to the end with the inputs as they were and the output buffer holding the pieces it
    stored (found by the run). -/
noncomputable def bodyRunB (c : Dev nD) (i : grid0.Coords)
    (arg3 : Memref sig .tc .vmem S2048x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S2048x512 .f32) (harg6 : arg6.IsWhole)
    (hc1 : ¬k0_cond1 i = 1#1) (hc2 : k0_cond2 i = 1#1) (hc3 : k0_cond3 i = 1#1)
    (x0 : Vec F S2048x512 .f32) (x1 : Vec F S512x512 .f32) (x2 : Vec F S1x512 .f32) (xo : Vec F S2048x512 .f32) :
    { L3 : List (View.Piece (Elt F) S2048x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xo
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)) -∗ K ⟨⟩))
          ⊢ wp frame (wpE (defs₀ (F := F)) Variants.none c none) E (cc0__linear_tiled_kernel i arg3 harg3 arg4 harg4 arg5 harg5 arg6 harg6) K } := by
  refine ⟨?_, fun E K => ?run⟩
  case run =>
    simp only [cc0__linear_tiled_kernel_eq_skeleton]; unfold cc0__linear_tiled_kernel_skel
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2
    obtain rfl := harg6.eq_unread hf3
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

end Cert.ReferenceIdeal.RefFrame

end
-- ==== Proof.RefFrame.lean ====
/-
  The reference's frame. What the output block's staging buffer holds after each of the 16 grid points, by recursion
  on the point: at an even point (first half of the contraction) what the overwrite leaves, at an odd point what the
  two additions leave over the contents of the point before — the buffer is not written back between an even point
  and the odd point after it, and it is written back at every odd point. With that as the proof data, the body's
  obligation at every point is one of the two runs, and the pipeline's launch theorem gives the whole run: it
  terminates, the argument arrays end as they began, and the result array ends at what the proof data say.
-/
import proofs.«148169_g2000509682604096_pallasbulk_105_2_alg».proof.Proof.RefRuns

set_option maxRecDepth 16384

noncomputable section

namespace Cert.ReferenceIdeal.RefFrame

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two cases' conditions from the point's parity -/

theorem condsA (t : Fin cfg0.N) (h0 : t.val % 2 = 0) :
    k0_cond1 (grid0.coords t) = 1#1 ∧ ¬k0_cond2 (grid0.coords t) = 1#1 ∧ ¬k0_cond3 (grid0.coords t) = 1#1 :=
  ⟨(hcond1 t).mpr h0, fun h => by have := (hcond2 t).mp h; omega, fun h => by have := (hcond3 t).mp h; omega⟩

theorem condsB (t : Fin cfg0.N) (h0 : ¬t.val % 2 = 0) :
    ¬k0_cond1 (grid0.coords t) = 1#1 ∧ k0_cond2 (grid0.coords t) = 1#1 ∧ k0_cond3 (grid0.coords t) = 1#1 :=
  ⟨fun h => h0 ((hcond1 t).mp h), (hcond2 t).mpr (by omega), (hcond3 t).mpr (by omega)⟩

/-! ## What each case leaves in the output buffer -/

/-- The first half's stores tile the output block. -/
theorem coverA (c : Dev nD) (i : grid0.Coords)
    (arg3 : Memref sig .tc .vmem S2048x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S2048x512 .f32) (harg6 : arg6.IsWhole)
    (hc1 : k0_cond1 i = 1#1) (hc2 : ¬k0_cond2 i = 1#1) (hc3 : ¬k0_cond3 i = 1#1)
    (x0 : Vec F S2048x512 .f32) (x1 : Vec F S512x512 .f32) (x2 : Vec F S1x512 .f32) (y : S2048x512.Idx) :
    ∃ pc ∈ (bodyRunA c i arg3 harg3 arg4 harg4 arg5 harg5 arg6 harg6 hc1 hc2 hc3 x0 x1 x2).1, y ∈ pc.1.set :=
  View.cover_of_tiledL (bodyRunA c i arg3 harg3 arg4 harg4 arg5 harg5 arg6 harg6 hc1 hc2 hc3 x0 x1 x2).1 S2048x512.size (by sl_kernel_rfl) y

/-- What the first half leaves in the output buffer: its stores read back. -/
def outA (c : Dev nD) (i : grid0.Coords)
    (arg3 : Memref sig .tc .vmem S2048x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S2048x512 .f32) (harg6 : arg6.IsWhole)
    (hc1 : k0_cond1 i = 1#1) (hc2 : ¬k0_cond2 i = 1#1) (hc3 : ¬k0_cond3 i = 1#1)
    (x0 : Vec F S2048x512 .f32) (x1 : Vec F S512x512 .f32) (x2 : Vec F S1x512 .f32) : Vec F S2048x512 .f32 :=
  VO3.read (Elt F) (VO3.writes (Elt F) VO3.junk (bodyRunA c i arg3 harg3 arg4 harg4 arg5 harg5 arg6 harg6 hc1 hc2 hc3 x0 x1 x2).1)

/-- The second half's stores tile the output block. -/
theorem coverB (c : Dev nD) (i : grid0.Coords)
    (arg3 : Memref sig .tc .vmem S2048x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S2048x512 .f32) (harg6 : arg6.IsWhole)
    (hc1 : ¬k0_cond1 i = 1#1) (hc2 : k0_cond2 i = 1#1) (hc3 : k0_cond3 i = 1#1)
    (x0 : Vec F S2048x512 .f32) (x1 : Vec F S512x512 .f32) (x2 : Vec F S1x512 .f32) (xo : Vec F S2048x512 .f32) (y : S2048x512.Idx) :
    ∃ pc ∈ (bodyRunB c i arg3 harg3 arg4 harg4 arg5 harg5 arg6 harg6 hc1 hc2 hc3 x0 x1 x2 xo).1, y ∈ pc.1.set :=
  View.cover_of_tiledL (bodyRunB c i arg3 harg3 arg4 harg4 arg5 harg5 arg6 harg6 hc1 hc2 hc3 x0 x1 x2 xo).1 S2048x512.size (by sl_kernel_rfl) y

/-- What the second half leaves in the output buffer over the contents `xo` it found: its stores read back. -/
def outB (c : Dev nD) (i : grid0.Coords)
    (arg3 : Memref sig .tc .vmem S2048x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S2048x512 .f32) (harg6 : arg6.IsWhole)
    (hc1 : ¬k0_cond1 i = 1#1) (hc2 : k0_cond2 i = 1#1) (hc3 : k0_cond3 i = 1#1)
    (x0 : Vec F S2048x512 .f32) (x1 : Vec F S512x512 .f32) (x2 : Vec F S1x512 .f32) (xo : Vec F S2048x512 .f32) : Vec F S2048x512 .f32 :=
  VO3.read (Elt F) (VO3.writes (Elt F) VO3.junk (bodyRunB c i arg3 harg3 arg4 harg4 arg5 harg5 arg6 harg6 hc1 hc2 hc3 x0 x1 x2 xo).1)

/-- The first half at point `t`, on the point's memrefs and input blocks. -/
def outAtA (c : Dev nD) (t : Fin cfg0.N) (h0 : t.val % 2 = 0) : Vec F S2048x512 .f32 :=
  outA c (grid0.coords t) (ms0 t) (hs0 t) (ms1 t) (hs1 t) (ms2 t) (hs2 t) (ms3 t) (hs3 t)
    (condsA t h0).1 (condsA t h0).2.1 (condsA t h0).2.2 (iblk m c 0 t) (iblk m c 1 t) (iblk m c 2 t)

/-- The second half at point `t`, over what the buffer held. -/
def outAtB (c : Dev nD) (t : Fin cfg0.N) (h0 : ¬t.val % 2 = 0) (xo : Vec F S2048x512 .f32) : Vec F S2048x512 .f32 :=
  outB c (grid0.coords t) (ms0 t) (hs0 t) (ms1 t) (hs1 t) (ms2 t) (hs2 t) (ms3 t) (hs3 t)
    (condsB t h0).1 (condsB t h0).2.1 (condsB t h0).2.2 (iblk m c 0 t) (iblk m c 1 t) (iblk m c 2 t) xo

/-! ## The output buffer after each point -/

/-- What the output window's staging buffer holds after the body at position `n`: at an even position the first
    half's result, at an odd one the second half's over what position `n - 1` left. -/
def outsAt (c : Dev nD) : (n : ℕ) → n < cfg0.N → Vec F S2048x512 .f32
  | 0, hn => outAtA m c ⟨0, hn⟩ (Nat.zero_mod _)
  | n + 1, hn =>
    if h0 : (n + 1) % 2 = 0 then outAtA m c ⟨n + 1, hn⟩ h0
    else outAtB m c ⟨n + 1, hn⟩ h0 (outsAt c n (Nat.lt_of_succ_lt hn))

theorem outsAt_even (c : Dev nD) (t : Fin cfg0.N) (h0 : t.val % 2 = 0) :
    outsAt m c t.val t.isLt = outAtA m c t h0 := by
  obtain ⟨n, hn⟩ := t
  cases n with
  | zero => exact rfl
  | succ n => exact (dif_pos h0).trans rfl

theorem outsAt_odd (c : Dev nD) (t : Fin cfg0.N) (h0 : ¬t.val % 2 = 0) :
    outsAt m c t.val t.isLt = outAtB m c t h0 (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and the
    output's at `outsAt`; the invariant the scoped rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outsAt m c t.val t.isLt := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- At an odd point the output's current staging buffer holds what the body left at the point before: the point is
    not the first, the buffer was not written back between (write-backs are at odd points), the window is live and
    its blocks are whole. -/
theorem before3_odd (c : Dev nD) (t : Fin cfg0.N) (h0 : ¬t.val % 2 = 0) (d) :
    (dats m 0 c).before 3 t d = outsAt m c (t.val - 1) (Nat.lt_of_le_of_lt (Nat.sub_le _ _) t.isLt) := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega)
    live3 (fun _ _ => rfl)]
  dsimp only [dats]

/-- At a live point the body hands each window's buffer back at the stated contents. -/
theorem leaves_live (c : Dev nD) (w : Fin cfg0.W) (t : Fin cfg0.N) (h : cfg0.idle w (grid0.coords t) = false) :
    (dats m 0 c).leavesExact w t
      = owns (c : Thread nD τ) ((cfg0.win w).stage (cfg0.slots t w)) fullShare ((dats m 0 c).after w t) := by
  unfold Dat.leavesExact; rw [h]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 1600000 in
/-- The body at any point: the inputs' memrefs hold their blocks; the point's parity says which half it is; at an odd
    point the output buffer holds what the even point before left; so that half's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    leaves_live m c 0 t rfl, leaves_live m c 1 t rfl, leaves_live m c 2 t rfl, leaves_live m c 3 t (live3 _),
    after0, after1, after2, after3]
  have hN : t.val < 16 := lt_of_lt_of_eq t.isLt (show cfg0.N = 16 from N_0)
  by_cases h0 : t.val % 2 = 0
  · rw [outsAt_even m c t h0]
    unfold outAtA outA
    iintro ⟨HΦ, Ho, ⟨%d0, H0⟩, ⟨%d1, H1⟩, ⟨%d2, H2⟩, ⟨%d3, H3⟩⟩
    iapply ((bodyRunA c (grid0.coords t) _ _ _ _ _ _ _ _ (condsA t h0).1 (condsA t h0).2.1 (condsA t h0).2.2
      (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverA c _ _ _ _ _ _ _ _ _ _ _ _ _ _ _)
  · rw [outsAt_odd m c t h0]
    simp only [before3_odd m c t h0]
    unfold outAtB outB
    iintro ⟨HΦ, Ho, ⟨%d0, H0⟩, ⟨%d1, H1⟩, ⟨%d2, H2⟩, ⟨%d3, H3⟩⟩
    iapply ((bodyRunB c (grid0.coords t) _ _ _ _ _ _ _ _ (condsB t h0).1 (condsB t h0).2.1 (condsB t h0).2.2
      (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverB c _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state
    has the result array at what the proof data compute and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs, and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.ReferenceIdeal.RefFrame

end
-- ==== Proof.RefPieces.lean ====
/-
  What each half's run leaves in the output buffer, as a value. The first half's one store covers the block, so the
  buffer holds the stored partial product of the two loaded blocks. The second half stores twice, each store
  covering the block: the later one decides the contents, and the value it stores was computed from a load that read
  back the earlier store — the accumulated sum — so the buffer holds the bias step applied to the accumulation step.
-/
import proofs.«148169_g2000509682604096_pallasbulk_105_2_alg».proof.Proof.RefFrame
import Idealize.ShloMosaic.Lib.Pipeline.Value

set_option maxRecDepth 16384

noncomputable section

namespace Cert.ReferenceIdeal.RefFrame

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The stores' rectangles start at the block's origin. -/
theorem origin : (![0, 0] : Fin 2 → Nat) = fun _ => 0 := funext fun a => by fin_cases a <;> rfl

/-- After a first-half point the output buffer holds the partial product of the activation and weight blocks. -/
theorem outA_eq (c : Dev nD) (i : grid0.Coords)
    (arg3 : Memref sig .tc .vmem S2048x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S2048x512 .f32) (harg6 : arg6.IsWhole)
    (hc1 : k0_cond1 i = 1#1) (hc2 : ¬k0_cond2 i = 1#1) (hc3 : ¬k0_cond3 i = 1#1)
    (x0 : Vec F S2048x512 .f32) (x1 : Vec F S512x512 .f32) (x2 : Vec F S1x512 .f32) :
    outA c i arg3 harg3 arg4 harg4 arg5 harg5 arg6 harg6 hc1 hc2 hc3 x0 x1 x2 = k0_pay1 x0 x1 := by
  unfold outA
  rw [View.read_writes_junk_eq_canon]
  unfold bodyRunA
  dsimp only
  sl_unfold_words
  rw [View.canon_unit_zero origin]
  simp only [View.readAt_eq_ld, harg3.read_unread, harg4.read_unread,
    View.ld_unit_zero (S := S2048x512) origin, View.ld_unit_zero (S := S512x512) origin]

/-- After a second-half point the output buffer holds the bias step of the accumulation step of what it held. -/
theorem outB_eq (c : Dev nD) (i : grid0.Coords)
    (arg3 : Memref sig .tc .vmem S2048x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S2048x512 .f32) (harg6 : arg6.IsWhole)
    (hc1 : ¬k0_cond1 i = 1#1) (hc2 : k0_cond2 i = 1#1) (hc3 : k0_cond3 i = 1#1)
    (x0 : Vec F S2048x512 .f32) (x1 : Vec F S512x512 .f32) (x2 : Vec F S1x512 .f32) (xo : Vec F S2048x512 .f32) :
    outB c i arg3 harg3 arg4 harg4 arg5 harg5 arg6 harg6 hc1 hc2 hc3 x0 x1 x2 xo = k0_pay3 (k0_pay2 x0 x1 xo) x2 := by
  unfold outB
  rw [View.read_writes_junk_eq_canon]
  unfold bodyRunB
  dsimp only
  sl_unfold_words
  rw [View.canon_cons_unit_zero (S := S2048x512) origin, View.readCov_unit_zero (S := S2048x512) _ origin]
  simp only [View.readAt_eq_ld, harg3.read_unread, harg4.read_unread, harg5.read_unread, harg6.read_unread,
    View.ld_unit_zero (S := S2048x512) origin, View.ld_unit_zero (S := S512x512) origin, View.ld_unit_zero (S := S1x512) origin]

end Cert.ReferenceIdeal.RefFrame

end
-- ==== Proof.RefPayloads.lean ====
/-
  The three values the reference's body stores, read at an entry `(p, q)` of the 2048 × 512 output block at the
  ideal values. The partial product of an activation block (2048 × 512) with a weight block (512 × 512) is the sum
  over the block's 512 features of the entries' products; the accumulation adds it to what the buffer held; the last
  step adds the bias block's entry of column `q`.
-/
import proofs.«148169_g2000509682604096_pallasbulk_105_2_alg».proof.Proof.Gen.ReferenceIdeal.Skeleton
import proofs.«148169_g2000509682604096_pallasbulk_105_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen
open Idealize.ShloMosaic Idealize.ShloMosaic.TcCoe Idealize.ShloMosaic.ValueIdx

/-- The partial product of one half of the features, at `(p, q)`. -/
theorem partial_apply (x0 : Vec Ideal S2048x512 .f32) (x1 : Vec Ideal S512x512 .f32) (p : Fin 2048) (q : Fin 512) :
    k0_pay1 (F := Ideal) x0 x1 (ix2 p q) = ∑ k : Fin 512, x0 (ix2 p k) * x1 (ix2 k q) := by
  unfold k0_pay1
  exact Cert.PlainDot.matmul_zero_apply (M := 2048) (K := 512) (N := 512) _ rfl none x0 x1 p q

/-- The accumulation: what the buffer held plus the partial product. -/
theorem accumulate_apply (x0 : Vec Ideal S2048x512 .f32) (x1 : Vec Ideal S512x512 .f32) (xo : Vec Ideal S2048x512 .f32)
    (p : Fin 2048) (q : Fin 512) :
    k0_pay2 (F := Ideal) x0 x1 xo (ix2 p q) = xo (ix2 p q) + ∑ k : Fin 512, x0 (ix2 p k) * x1 (ix2 k q) := by
  unfold k0_pay2
  refine (addf_apply (s := S2048x512) (φ := .f32) _ _ (ix2 p q)).trans ?_
  refine congrArg₂ (· + ·) ?_ (partial_apply x0 x1 p q)
  exact congrFun (shapeCast_self (s := S2048x512) xo _) (ix2 p q)

/-- The last step: what the buffer held plus the bias of column `q`. -/
theorem bias_apply (xo : Vec Ideal S2048x512 .f32) (x2 : Vec Ideal S1x512 .f32) (p : Fin 2048) (q : Fin 512) :
    k0_pay3 (F := Ideal) xo x2 (ix2 p q) = xo (ix2 p q) + x2 (ix2 0 q) := by
  unfold k0_pay3
  refine (addf_apply (s := S2048x512) (φ := .f32) _ _ (ix2 p q)).trans ?_
  refine congrArg₂ (· + ·) ?_ ?_
  · exact congrFun (shapeCast_self (s := S2048x512) xo _) (ix2 p q)
  · exact broadcastTo_1b_ab_apply (a := 2048) (b := 512) x2 _ p q

end Cert.ReferenceIdeal.RefValue

end
-- ==== Proof.RefValue.lean ====
/-
  The reference's result as a value. At an even point the output buffer holds, at `(p, q)`, the sum over the first 512
  features of the products of the activation row and the weight column the point's blocks show; at the odd point after
  it the buffer holds that sum plus the sum over the last 512 features plus the bias — all 1024 features of the affine
  layer's entry, since a sum over 1024 positions is the sum over the first 512 plus the sum over the last 512. The odd
  points write their blocks back, one per (row block, column block), and those eight blocks tile the result array: so
  the array ends holding the affine layer of the three arguments.
-/
import proofs.«148169_g2000509682604096_pallasbulk_105_2_alg».proof.Proof.RefPieces
import proofs.«148169_g2000509682604096_pallasbulk_105_2_alg».proof.Proof.RefPayloads
import proofs.«148169_g2000509682604096_pallasbulk_105_2_alg».proof.Proof.Spec
import proofs.«148169_g2000509682604096_pallasbulk_105_2_alg».proof.Proof.LibPlainDot
import Idealize.ShloMosaic.Lib.ValueIdx
import Idealize.ShloMosaic.Lib.Pipeline.Value

set_option maxRecDepth 16384

noncomputable section

namespace Cert.ReferenceIdeal.RefValue

open Cert.ReferenceIdeal Cert.ReferenceIdeal.Gen Cert.ReferenceIdeal.RefFrame
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The arrays and the blocks, by name -/

abbrev xarr (c : Dev nD) : Vec Ideal S8192x1024 .f32 := m ((c : Thread nD τ).loc main_arg0)
abbrev warr (c : Dev nD) : Vec Ideal S1024x1024 .f32 := m ((c : Thread nD τ).loc main_arg1)
abbrev barr (c : Dev nD) : Vec Ideal S1x1024 .f32 := m ((c : Thread nD τ).loc main_arg2)
abbrev xblk (c : Dev nD) (t : Fin cfg0.N) : Vec Ideal S2048x512 .f32 := iblk m c 0 t
abbrev wblk (c : Dev nD) (t : Fin cfg0.N) : Vec Ideal S512x512 .f32 := iblk m c 1 t
abbrev bblk (c : Dev nD) (t : Fin cfg0.N) : Vec Ideal S1x512 .f32 := iblk m c 2 t

/-! ## Where each window's block sits at a point -/

/-- Point `t` is (row block `t / 4`, column block `t / 2 % 2`, feature half `t % 2`): the activation block is (row block,
    half), the weight block (half, column block), the bias block (0, column block), the output block (row block,
    column block). Decided over the 16 points. -/
theorem idx_facts : ∀ t : Fin cfg0.N,
    win0_0.index t (0 : Fin 2) = t.val / 4 ∧ win0_0.index t (1 : Fin 2) = t.val % 2
    ∧ win0_1.index t (0 : Fin 2) = t.val % 2 ∧ win0_1.index t (1 : Fin 2) = t.val / 2 % 2
    ∧ win0_2.index t (0 : Fin 2) = 0 ∧ win0_2.index t (1 : Fin 2) = t.val / 2 % 2
    ∧ win0_3.index t (0 : Fin 2) = t.val / 4 ∧ win0_3.index t (1 : Fin 2) = t.val / 2 % 2 :=
  (by decide +kernel : ∀ t : Fin grid0.N,
    win0_0.index t (0 : Fin 2) = t.val / 4 ∧ win0_0.index t (1 : Fin 2) = t.val % 2
    ∧ win0_1.index t (0 : Fin 2) = t.val % 2 ∧ win0_1.index t (1 : Fin 2) = t.val / 2 % 2
    ∧ win0_2.index t (0 : Fin 2) = 0 ∧ win0_2.index t (1 : Fin 2) = t.val / 2 % 2
    ∧ win0_3.index t (0 : Fin 2) = t.val / 4 ∧ win0_3.index t (1 : Fin 2) = t.val / 2 % 2)

/-- The activation block at `(p, k)` is the activation array at row `2048 · (t / 4) + p`, feature `512 · (t % 2) + k`. -/
theorem xblk_apply (c : Dev nD) (t : Fin cfg0.N) (p : Fin 2048) (k : Fin 512) (r : Fin 8192) (j : Fin 1024)
    (hr : r.val = t.val / 4 * 2048 + p.val) (hj : j.val = t.val % 2 * 512 + k.val) :
    xblk m c t (ix2 p k) = xarr m c (ix2 r j) := by
  show V m c main_arg0 (((cfg0.win 0).blk t).view.emb (ix2 p k)) = V m c main_arg0 (ix2 r j)
  refine congrArg _ (funext fun a => Fin.ext ?_)
  obtain ⟨e0, e1, -⟩ := idx_facts t
  match a with
  | ⟨0, _⟩ => show win0_0.index t (0 : Fin 2) * 2048 + 1 * p.val = r.val; omega
  | ⟨1, _⟩ => show win0_0.index t (1 : Fin 2) * 512 + 1 * k.val = j.val; omega

/-- The weight block at `(k, q)` is the weight array at feature `512 · (t % 2) + k`, column `512 · (t / 2 % 2) + q`. -/
theorem wblk_apply (c : Dev nD) (t : Fin cfg0.N) (k : Fin 512) (q : Fin 512) (r : Fin 1024) (j : Fin 1024)
    (hr : r.val = t.val % 2 * 512 + k.val) (hj : j.val = t.val / 2 % 2 * 512 + q.val) :
    wblk m c t (ix2 k q) = warr m c (ix2 r j) := by
  show V m c main_arg1 (((cfg0.win 1).blk t).view.emb (ix2 k q)) = V m c main_arg1 (ix2 r j)
  refine congrArg _ (funext fun a => Fin.ext ?_)
  obtain ⟨-, -, e2, e3, -⟩ := idx_facts t
  match a with
  | ⟨0, _⟩ => show win0_1.index t (0 : Fin 2) * 512 + 1 * k.val = r.val; omega
  | ⟨1, _⟩ => show win0_1.index t (1 : Fin 2) * 512 + 1 * q.val = j.val; omega

/-- The bias block at column `q` is the bias row at column `512 · (t / 2 % 2) + q`. -/
theorem bblk_apply (c : Dev nD) (t : Fin cfg0.N) (q : Fin 512) (j : Fin 1024)
    (hj : j.val = t.val / 2 % 2 * 512 + q.val) :
    bblk m c t (ix2 0 q) = barr m c (ix2 0 j) := by
  show V m c main_arg2 (((cfg0.win 2).blk t).view.emb (ix2 0 q)) = V m c main_arg2 (ix2 0 j)
  refine congrArg _ (funext fun a => Fin.ext ?_)
  obtain ⟨-, -, -, -, e4, e5, -⟩ := idx_facts t
  match a with
  | ⟨0, _⟩ => show win0_2.index t (0 : Fin 2) * 1 + 1 * 0 = 0; omega
  | ⟨1, _⟩ => show win0_2.index t (1 : Fin 2) * 512 + 1 * q.val = j.val; omega

/-- The output block's entry `(p, q)` is the result array's entry (`2048 · (t / 4) + p`, `512 · (t / 2 % 2) + q`). -/
theorem oblk_emb (t : Fin cfg0.N) (p : Fin 2048) (q : Fin 512) (r : Fin 8192) (j : Fin 1024)
    (hr : r.val = t.val / 4 * 2048 + p.val) (hj : j.val = t.val / 2 % 2 * 512 + q.val) :
    ((cfg0.win 3).blk t).view.emb (ix2 p q) = (ix2 r j : S8192x1024.Idx) := by
  refine funext fun a => Fin.ext ?_
  obtain ⟨-, -, -, -, -, -, e6, e7⟩ := idx_facts t
  match a with
  | ⟨0, _⟩ => show win0_3.index t (0 : Fin 2) * 2048 + 1 * p.val = r.val; omega
  | ⟨1, _⟩ => show win0_3.index t (1 : Fin 2) * 512 + 1 * q.val = j.val; omega

/-! ## The output buffer after a point, entry by entry -/

/-- After an even point: the partial product of the point's activation and weight blocks. -/
theorem outsAt_even_apply (c : Dev nD) (t : Fin cfg0.N) (h0 : t.val % 2 = 0) (p : Fin 2048) (q : Fin 512) :
    outsAt m c t.val t.isLt (ix2 p q) = ∑ k : Fin 512, xblk m c t (ix2 p k) * wblk m c t (ix2 k q) := by
  rw [outsAt_even m c t h0]
  unfold outAtA
  refine (congrFun (outA_eq (F := Ideal) c (grid0.coords t) (ms0 t) (hs0 t) (ms1 t) (hs1 t) (ms2 t) (hs2 t) (ms3 t) (hs3 t)
    (condsA t h0).1 (condsA t h0).2.1 (condsA t h0).2.2 (xblk m c t) (wblk m c t) (bblk m c t)) (ix2 p q)).trans ?_
  exact partial_apply (xblk m c t) (wblk m c t) p q

/-- After an odd point: what the point before left, plus the point's partial product, plus the bias. -/
theorem outsAt_odd_apply (c : Dev nD) (t : Fin cfg0.N) (h0 : ¬t.val % 2 = 0) (p : Fin 2048) (q : Fin 512) :
    outsAt m c t.val t.isLt (ix2 p q)
      = (outsAt m c (t.val - 1) (Nat.lt_of_le_of_lt (Nat.sub_le _ _) t.isLt) (ix2 p q)
          + ∑ k : Fin 512, xblk m c t (ix2 p k) * wblk m c t (ix2 k q)) + bblk m c t (ix2 0 q) := by
  rw [outsAt_odd m c t h0]
  unfold outAtB
  refine (congrFun (outB_eq (F := Ideal) c (grid0.coords t) (ms0 t) (hs0 t) (ms1 t) (hs1 t) (ms2 t) (hs2 t) (ms3 t) (hs3 t)
    (condsB t h0).1 (condsB t h0).2.1 (condsB t h0).2.2 (xblk m c t) (wblk m c t) (bblk m c t)
    (outsAt m c (t.val - 1) (Nat.lt_of_le_of_lt (Nat.sub_le _ _) t.isLt))) (ix2 p q)).trans ?_
  refine (bias_apply _ (bblk m c t) p q).trans ?_
  exact congrArg (· + bblk m c t (ix2 0 q)) (accumulate_apply (xblk m c t) (wblk m c t) _ p q)

/-! ## What an odd point writes back -/

/-- An odd point's output buffer holds its block of the affine layer of the three argument arrays. -/
theorem outsAt_odd_affine (c : Dev nD) (t : Fin cfg0.N) (h1 : t.val % 2 = 1) (p : Fin 2048) (q : Fin 512)
    (r : Fin 8192) (j : Fin 1024) (hr : r.val = t.val / 4 * 2048 + p.val) (hj : j.val = t.val / 2 % 2 * 512 + q.val) :
    outsAt m c t.val t.isLt (ix2 p q) = Cert.Spec.affine (xarr m c) (warr m c) (barr m c) (ix2 r j) := by
  have hN : t.val < 16 := lt_of_lt_of_eq t.isLt (show cfg0.N = 16 from N_0)
  have hlt : t.val - 1 < cfg0.N := Nat.lt_of_le_of_lt (Nat.sub_le _ _) t.isLt
  have hE : outsAt m c (t.val - 1) hlt (ix2 p q)
      = ∑ k : Fin 512, xblk m c ⟨t.val - 1, hlt⟩ (ix2 p k) * wblk m c ⟨t.val - 1, hlt⟩ (ix2 k q) :=
    outsAt_even_apply m c ⟨t.val - 1, hlt⟩ (by show (t.val - 1) % 2 = 0; omega) p q
  rw [outsAt_odd_apply m c t (by omega) p q, hE, Cert.Spec.affine_apply]
  have hlo : ∀ k : Fin 512, xblk m c ⟨t.val - 1, hlt⟩ (ix2 p k) * wblk m c ⟨t.val - 1, hlt⟩ (ix2 k q)
      = xarr m c (ix2 r ⟨k.val, by have := k.isLt; omega⟩) * warr m c (ix2 ⟨k.val, by have := k.isLt; omega⟩ j) := fun k => by
    rw [xblk_apply m c ⟨t.val - 1, hlt⟩ p k r ⟨k.val, by have := k.isLt; omega⟩ (by show r.val = (t.val - 1) / 4 * 2048 + p.val; omega)
        (by show k.val = (t.val - 1) % 2 * 512 + k.val; omega),
      wblk_apply m c ⟨t.val - 1, hlt⟩ k q ⟨k.val, by have := k.isLt; omega⟩ j (by show k.val = (t.val - 1) % 2 * 512 + k.val; omega)
        (by show j.val = (t.val - 1) / 2 % 2 * 512 + q.val; omega)]
  have hhi : ∀ k : Fin 512, xblk m c t (ix2 p k) * wblk m c t (ix2 k q)
      = xarr m c (ix2 r ⟨512 + k.val, by have := k.isLt; omega⟩) * warr m c (ix2 ⟨512 + k.val, by have := k.isLt; omega⟩ j) := fun k => by
    rw [xblk_apply m c t p k r ⟨512 + k.val, by have := k.isLt; omega⟩ hr (by show 512 + k.val = t.val % 2 * 512 + k.val; omega),
      wblk_apply m c t k q ⟨512 + k.val, by have := k.isLt; omega⟩ j (by show 512 + k.val = t.val % 2 * 512 + k.val; omega) hj]
  rw [Finset.sum_congr rfl fun k _ => hlo k, Finset.sum_congr rfl fun k _ => hhi k, bblk_apply m c t q j hj]
  refine congrArg (· + barr m c (ix2 0 j)) ?_
  exact (Cert.PlainDot.sum_two_blocks (a := 512) (b := 512) (n := 1024) rfl
    (fun k : Fin 1024 => xarr m c (ix2 r k) * warr m c (ix2 k j)) _ _ (fun _ => rfl) (fun _ => rfl)).symm

/-- What an odd point writes back is its block of the affine layer. -/
theorem flushed_eq (c : Dev nD) (t : Fin cfg0.N) (hf : (cfg0.win 3).flush t = true) :
    (dats m 0 c).flushed 3 t
      = ((cfg0.win 3).blk t).view.read (Elt Ideal) (Cert.Spec.affine (xarr m c) (warr m c) (barr m c)) := by
  have h1 : t.val % 2 = 1 := (flush0_3 t).mp hf
  have hN : t.val < 16 := lt_of_lt_of_eq t.isLt (show cfg0.N = 16 from N_0)
  show (cfg0.win 3).cut (grid0.coords t) ((dats m 0 c).after 3 t) = _
  rw [after3]
  refine funext fun (y : S2048x512.Idx) => ?_
  obtain ⟨p, q, rfl⟩ : ∃ (p : Fin 2048) (q : Fin 512), y = ix2 p q := ⟨y 0, y 1, eq_ix2 y⟩
  show outsAt m c t.val t.isLt (ix2 p q)
    = Cert.Spec.affine (xarr m c) (warr m c) (barr m c) (((cfg0.win 3).blk t).view.emb (ix2 p q))
  have hp := p.isLt
  have hq := q.isLt
  rw [oblk_emb t p q ⟨t.val / 4 * 2048 + p.val, by omega⟩ ⟨t.val / 2 % 2 * 512 + q.val, by omega⟩ rfl rfl]
  exact outsAt_odd_affine m c t h1 p q _ _ rfl rfl

/-! ## The odd points' blocks tile the result -/

theorem mem_oblk (t : Fin cfg0.N) (i : S8192x1024.Idx) :
    i ∈ ((cfg0.win 3).blk t).view.set ↔ ∀ a : Fin 2, win0_3.index t a * S2048x512.size a ≤ (i a).val
      ∧ (i a).val < win0_3.index t a * S2048x512.size a + S2048x512.size a := by
  show i ∈ ((View.whole main_v0).slice (win0_3.rect t)).set ↔ _
  rw [View.set_slice_whole, Rect.mem_set_unit]
  exact Iff.rfl

/-- Entry `(r, j)` of the result lies in the block written back at the odd point of row block `r / 2048` and column
    block `j / 512`. -/
theorem cover (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  have hlt : (i 0).val / 2048 * 4 + (i 1).val / 512 * 2 + 1 < cfg0.N := by
    rw [show cfg0.N = 16 from N_0]; omega
  refine ⟨⟨(i 0).val / 2048 * 4 + (i 1).val / 512 * 2 + 1, hlt⟩, (flush0_3 _).mpr (by
    show ((i 0).val / 2048 * 4 + (i 1).val / 512 * 2 + 1) % 2 = 1; omega), ?_⟩
  rw [mem_oblk]
  obtain ⟨-, -, -, -, -, -, e6, e7⟩ := idx_facts ⟨(i 0).val / 2048 * 4 + (i 1).val / 512 * 2 + 1, hlt⟩
  have e6' : win0_3.index ⟨(i 0).val / 2048 * 4 + (i 1).val / 512 * 2 + 1, hlt⟩ (0 : Fin 2)
      = ((i 0).val / 2048 * 4 + (i 1).val / 512 * 2 + 1) / 4 := e6
  have e7' : win0_3.index ⟨(i 0).val / 2048 * 4 + (i 1).val / 512 * 2 + 1, hlt⟩ (1 : Fin 2)
      = ((i 0).val / 2048 * 4 + (i 1).val / 512 * 2 + 1) / 2 % 2 := e7
  intro a
  match a with
  | ⟨0, _⟩ =>
    show win0_3.index _ (0 : Fin 2) * 2048 ≤ (i 0).val ∧ (i 0).val < win0_3.index _ (0 : Fin 2) * 2048 + 2048
    rw [e6']; omega
  | ⟨1, _⟩ =>
    show win0_3.index _ (1 : Fin 2) * 512 ≤ (i 1).val ∧ (i 1).val < win0_3.index _ (1 : Fin 2) * 512 + 512
    rw [e7']; omega

/-! ## The result array, and the run -/

/-- After the run the result array holds the affine layer of the three argument arrays. -/
theorem final (c : Dev nD) :
    (dats m 0 c).arrAt 3 cfg0.N = Cert.Spec.affine (xarr m c) (warr m c) (barr m c) :=
  (dats m 0 c).arrAt_eq_of_cover 3 _ (fun t hf => flushed_eq m c t hf) cover

/-- The reference runs, its result is the affine layer of its arguments, and its arguments end unchanged. -/
theorem run : θ_run (defs (F := Ideal)) (onTc (τ := τ) (main (F := Ideal))) ⟨m, fun _ => 0, ρ⟩ fun r => ∀ c : Dev nD,
      r.2.mem ((c : Thread nD τ).loc main_v0) = Cert.Spec.affine (xarr m c) (warr m c) (barr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.ReferenceIdeal.RefValue

end
-- ==== Proof.lean ====
/-
  The certificate of a dense affine layer `out = x · Wᵀ + b` (8192 activation rows of 1024 features, 1024 outputs).
  The kernel multiplies a block of 512 rows by the whole weight matrix in one product over all 1024 features and adds
  the bias; it narrows both operands to bf16 first, which at the ideal values changes nothing. The reference tiles
  the result into (2048 × 512) blocks and the features into two halves of 512: over a block it first stores the first
  half's partial product, then adds the second half's and the bias. At the ideal values both programs end with the
  same array, entry `(i, j)` being `(∑ k, x (i, k) * w (k, j)) + b (0, j)`: a sum over 1024 features is the sum over
  the first 512 plus the sum over the last 512, and addition of extended reals is associative. No input needs to be
  finite for that, so the precondition is never opened.
-/
import proofs.«148169_g2000509682604096_pallasbulk_105_2_alg».proof.Defs
import proofs.«148169_g2000509682604096_pallasbulk_105_2_alg».proof.Proof.Gen.Kernel
import proofs.«148169_g2000509682604096_pallasbulk_105_2_alg».proof.Proof.Gen.Kernel.Frame
import proofs.«148169_g2000509682604096_pallasbulk_105_2_alg».proof.Proof.Gen.KernelIdeal
import proofs.«148169_g2000509682604096_pallasbulk_105_2_alg».proof.Proof.Gen.KernelIdeal.Frame
import proofs.«148169_g2000509682604096_pallasbulk_105_2_alg».proof.Proof.Gen.ReferenceIdeal
import proofs.«148169_g2000509682604096_pallasbulk_105_2_alg».proof.Proof.Gen.Pre_finite_inputs
import proofs.«148169_g2000509682604096_pallasbulk_105_2_alg».proof.Proof.KernelValue
import proofs.«148169_g2000509682604096_pallasbulk_105_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- So does the reference: its tiled kernel's run, point by point. -/
theorem frame_referenceIdeal : Cert.frame_ReferenceIdeal := fun m ρ _ => Cert.ReferenceIdeal.RefFrame.frame m ρ

/-- The idealization rewrote nothing. -/
theorem preserves : Cert.preserves_Kernel_KernelIdeal := trivial

/-- Both programs end with the affine layer of their arguments, and the arguments agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run m' ρ')
  dsimp only [Cert.ReferenceIdeal.RefValue.xarr, Cert.ReferenceIdeal.RefValue.warr, Cert.ReferenceIdeal.RefValue.barr]
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
